-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x3 : Shape := ⟨2, ![1024, 3]⟩
abbrev S1024 : Shape := ⟨1, ![1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x3 : S_.BroadcastsInDim S1024x3 (![] : Fin 0 → Fin S1024x3.rank)
  reducesTo_S1024x3_S_d0_1 : S1024x3.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x4096x1024 .f32) (main_arg1 : FVec F S1024x3 .f32) (main_arg2 : FVec F S1024 .f32) (main_arg3 : FVec F S1024x1024 .f32) (main_arg4 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x3 .f32 := Host.absf main_arg1
  let main_cst_0 : FVec F S_ .f32 := constant S_ .f32 0x7F800000#32
  let main_v5 : FVec F S1024x3 .f32 := broadcastInDim S1024x3 ![] bcast_S_S1024x3 main_cst_0
  let main_v6 : IVec S1024x3 1 := cmpf .olt main_v4 main_v5
  let main_c_1 : IVec S_ 1 := constantI S_ 1 1#1
  let main_v7 : IVec S_ 1 := (fun x v => Host.reduce IntOp.andi x v reducesTo_S1024x3_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x4096x1024 : Shape := ⟨3, ![4, 4096, 1024]⟩
abbrev S1024x3 : Shape := ⟨2, ![1024, 3]⟩
abbrev S1024 : Shape := ⟨1, ![1024]⟩
abbrev S1024x1024 : Shape := ⟨2, ![1024, 1024]⟩
abbrev S_ : Shape := ⟨0, ![]⟩
abbrev S4x4104x1024 : Shape := ⟨3, ![4, 4104, 1024]⟩
abbrev S3x1024 : Shape := ⟨2, ![3, 1024]⟩
abbrev S1x1024 : Shape := ⟨2, ![1, 1024]⟩
abbrev S1x512x1024 : Shape := ⟨3, ![1, 512, 1024]⟩
abbrev S1x8x1024 : Shape := ⟨3, ![1, 8, 1024]⟩
abbrev S512x1024 : Shape := ⟨2, ![512, 1024]⟩
abbrev S8x1024 : Shape := ⟨2, ![8, 1024]⟩
abbrev S2x1024 : Shape := ⟨2, ![2, 1024]⟩
abbrev S510x1024 : Shape := ⟨2, ![510, 1024]⟩
abbrev S511x1024 : Shape := ⟨2, ![511, 1024]⟩

abbrev nBuf : Space → Nat
  | .hbm => 14
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S1024x3, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S4x4104x1024, .f32⟩
  | .hbm, ⟨8, _⟩ => ⟨S3x1024, .f32⟩
  | .hbm, ⟨9, _⟩ => ⟨S1x1024, .f32⟩
  | .hbm, ⟨10, _⟩ => ⟨S1024x1024, .f32⟩
  | .hbm, ⟨11, _⟩ => ⟨S1024x1024, .bf16⟩
  | .hbm, ⟨12, _⟩ => ⟨S1x1024, .f32⟩
  | .hbm, ⟨13, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S3x1024, .f32⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c0_i32 : BitVec 32 := 0#32
  let c0_i32_0 : BitVec 32 := 0#32
  ![arg0.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  pads_S4x4096x1024_S4x4104x1024_000_800_000 : S4x4096x1024.Pads (![0, 8, 0] : Fin 3 → Nat) ![0, 0, 0] ![0, 0, 0] S4x4104x1024
  h_S_ : 0 < S_.numel
  transposes_S1024x3_S3x1024_1_0 : S1024x3.Transposes [1, 0] S3x1024
  shapeCasts_S1024_S1x1024 : S1024.ShapeCasts S1x1024
  transposes_S1024x1024_S1024x1024_1_0 : S1024x1024.Transposes [1, 0] S1024x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x8x1024_S1x8x1024_0_0_0 : ∀ a, (![0, 0, 0] : Fin 3 → Nat) a + S1x8x1024.size a ≤ S1x8x1024.size a
  h_S1x8x1024 : 0 < S1x8x1024.numel
  shapeCasts_S1x8x1024_S8x1024 : S1x8x1024.ShapeCasts S8x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S8x1024_o6_0_S2x1024 : S8x1024.Slices ![6, 0] S2x1024
  slices_S512x1024_o0_0_S510x1024 : S512x1024.Slices ![0, 0] S510x1024
  concatenates_S2x1024_S510x1024_S512x1024_d0 : Shape.Concatenates [S2x1024, S510x1024] S512x1024 0
  inb_S3x1024_S1x1024_0_0 : ∀ a, (![0, 0] : Fin 2 → Nat) a + S1x1024.size a ≤ S3x1024.size a
  slices_S8x1024_o7_0_S1x1024 : S8x1024.Slices ![7, 0] S1x1024
  slices_S512x1024_o0_0_S511x1024 : S512x1024.Slices ![0, 0] S511x1024
  concatenates_S1x1024_S511x1024_S512x1024_d0 : Shape.Concatenates [S1x1024, S511x1024] S512x1024 0
  inb_S3x1024_S1x1024_1_0 : ∀ a, (![1, 0] : Fin 2 → Nat) a + S1x1024.size a ≤ S3x1024.size a
  inb_S3x1024_S1x1024_2_0 : ∀ a, (![2, 0] : Fin 2 → Nat) a + S1x1024.size a ≤ S3x1024.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x1024.size a ≤ S4x4104x1024.size a
  hwx0_1 : ∀ i : grid0.Coords, EltTy.bits .f32 = 32 ∨ (Rect.block (s := S4x4104x1024) S1x8x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1024.size a ≤ S3x1024.size a
  hwx0_2 : ∀ i : grid0.Coords, EltTy.bits .f32 = 32 ∨ (Rect.block (s := S3x1024) S3x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S4x4096x1024.size a
  hwx0_6 : ∀ i : grid0.Coords, EltTy.bits .f32 = 32 ∨ (Rect.block (s := S4x4096x1024) S1x512x1024.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S1024x3 : Shape := ⟨2, ![1024, 3]⟩
abbrev S1024 : Shape := ⟨1, ![1024]⟩
abbrev S1024x1024 : Shape := ⟨2, ![1024, 1024]⟩
abbrev S_ : Shape := ⟨0, ![]⟩
abbrev S4x4098x1024 : Shape := ⟨3, ![4, 4098, 1024]⟩
abbrev S1024x1 : Shape := ⟨2, ![1024, 1]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x3, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S4x4098x1024, .f32⟩
  | .hbm, ⟨8, _⟩ => ⟨S4x4096x1024, .f32⟩
  | .hbm, ⟨9, _⟩ => ⟨S1024x1, .f32⟩
  | .hbm, ⟨10, _⟩ => ⟨S1024, .f32⟩
  | .hbm, ⟨11, _⟩ => ⟨S1x1x1024, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S1024x1, .f32⟩
  | .hbm, ⟨19, _⟩ => ⟨S1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S1024x1, .f32⟩
  | .hbm, ⟨26, _⟩ => ⟨S1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S1x1x1024, .f32⟩
  | .hbm, ⟨36, _⟩ => ⟨S4x4096x1024, .f32⟩
  | .hbm, ⟨37, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  pads_S4x4096x1024_S4x4098x1024_000_200_000 : S4x4096x1024.Pads (![0, 2, 0] : Fin 3 → Nat) ![0, 0, 0] ![0, 0, 0] S4x4098x1024
  h_S_ : 0 < S_.numel
  slices_S4x4098x1024_S4x4096x1024_0_0_0 : S4x4098x1024.Slices ![0, 0, 0] S4x4096x1024
  slices_S1024x3_S1024x1_0_0 : S1024x3.Slices ![0, 0] S1024x1
  shapeCasts_S1024x1_S1024 : S1024x1.ShapeCasts S1024
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x1024 : S_.BroadcastsInDim S4x4096x1024 (![] : Fin 0 → Fin S4x4096x1024.rank)
  slices_S4x4098x1024_S4x4096x1024_0_1_0 : S4x4098x1024.Slices ![0, 1, 0] S4x4096x1024
  slices_S1024x3_S1024x1_0_1 : S1024x3.Slices ![0, 1] S1024x1
  slices_S4x4098x1024_S4x4096x1024_0_2_0 : S4x4098x1024.Slices ![0, 2, 0] S4x4096x1024
  slices_S1024x3_S1024x1_0_2 : S1024x3.Slices ![0, 2] S1024x1
  dot_S4x4096x1024_S1024x1024_S4x4096x1024_2_1_01_0_n_n_wf : DotDims.WF S4x4096x1024 S1024x1024 S4x4096x1024 [2] [1] [0, 1] [0] [] []

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.Spec.lean ====
/-
  The function both programs compute: a causal depthwise convolution of three taps along the sequence axis,
  followed by a pointwise (1 × 1) convolution that mixes the channels.

  For a batch `b`, a position `l` and a channel `d`, tap `k` (k = 0, 1, 2) reads the input at position `l + k - 2` of the
  same batch and channel; a position before the start of the sequence (`l + k < 2`) reads the padding value `z` instead.
  The depthwise stage is
      `y b l d = b_dw d + tap 0 · w_dw (d, 0) + tap 1 · w_dw (d, 1) + tap 2 · w_dw (d, 2)`,
  summed in that order, and the result at `(b, l, e)` is
      `(Σ d, y b l d · w_pw (e, d)) + b_pw e`.
  Everything is over the extended reals; only the additive commutative monoid structure and the product are used.
-/
import Idealize.ShloMosaic.PureOps.Ideal
import Idealize.ShloMosaic.Lib.ValueIdx

noncomputable section

namespace Cert.CausalConv

open Idealize.ShloMosaic Idealize.ShloMosaic.ValueIdx

/-- The input `x` at position `l + k - 2` of batch `b`, channel `d`; the padding value `z` where that position is before
    the start of the sequence. -/
def tap (z : EReal) (x : (⟨3, ![4, 4096, 1024]⟩ : Shape).Idx → EReal) (b : Fin 4) (l : Fin 4096) (d : Fin 1024) (k : Fin 3) :
    EReal :=
  if h : 2 ≤ l.val + k.val then x (ix3 b ⟨l.val + k.val - 2, by have := l.isLt; have := k.isLt; omega⟩ d) else z

/-- The depthwise stage at `(b, l, d)`: the bias, then the three taps times their weights, added in the taps' order. -/
def depthwise (z : EReal) (x : (⟨3, ![4, 4096, 1024]⟩ : Shape).Idx → EReal) (wdw : (⟨2, ![1024, 3]⟩ : Shape).Idx → EReal)
    (bdw : (⟨1, ![1024]⟩ : Shape).Idx → EReal) (b : Fin 4) (l : Fin 4096) (d : Fin 1024) : EReal :=
  bdw (ix1 d) + tap z x b l d 0 * wdw (ix2 d 0) + tap z x b l d 1 * wdw (ix2 d 1) + tap z x b l d 2 * wdw (ix2 d 2)

/-- The result at batch `b`, position `l`, output channel `e`: the depthwise stage mixed over the channels by row `e` of
    `w_pw`, plus the pointwise bias. -/
def outAt (z : EReal) (x : (⟨3, ![4, 4096, 1024]⟩ : Shape).Idx → EReal) (wdw : (⟨2, ![1024, 3]⟩ : Shape).Idx → EReal)
    (bdw : (⟨1, ![1024]⟩ : Shape).Idx → EReal) (wpw : (⟨2, ![1024, 1024]⟩ : Shape).Idx → EReal)
    (bpw : (⟨1, ![1024]⟩ : Shape).Idx → EReal) (b : Fin 4) (l : Fin 4096) (e : Fin 1024) : EReal :=
  (∑ d : Fin 1024, depthwise z x wdw bdw b l d * wpw (ix2 e d)) + bpw (ix1 e)

/-- The result array: `outAt` at an index's three coordinates. -/
def out (z : EReal) (x : (⟨3, ![4, 4096, 1024]⟩ : Shape).Idx → EReal) (wdw : (⟨2, ![1024, 3]⟩ : Shape).Idx → EReal)
    (bdw : (⟨1, ![1024]⟩ : Shape).Idx → EReal) (wpw : (⟨2, ![1024, 1024]⟩ : Shape).Idx → EReal)
    (bpw : (⟨1, ![1024]⟩ : Shape).Idx → EReal) : (⟨3, ![4, 4096, 1024]⟩ : Shape).Idx → EReal := fun i =>
  outAt z x wdw bdw wpw bpw (i 0) (i 1) (i 2)

/-- A tap whose position exists reads the input there. -/
theorem tap_of_le (z : EReal) (x : (⟨3, ![4, 4096, 1024]⟩ : Shape).Idx → EReal) (b : Fin 4) (l : Fin 4096) (d : Fin 1024)
    (k : Fin 3) (r : Fin 4096) (h : r.val + 2 = l.val + k.val) : tap z x b l d k = x (ix3 b r d) := by
  unfold tap
  rw [dif_pos (by omega)]
  exact congrArg (fun r' => x (ix3 b r' d)) (Fin.ext (by show l.val + k.val - 2 = r.val; omega))

/-- A tap whose position is before the start of the sequence reads the padding value. -/
theorem tap_of_lt (z : EReal) (x : (⟨3, ![4, 4096, 1024]⟩ : Shape).Idx → EReal) (b : Fin 4) (l : Fin 4096) (d : Fin 1024)
    (k : Fin 3) (h : l.val + k.val < 2) : tap z x b l d k = z := by
  unfold tap
  rw [dif_neg (by omega)]

end Cert.CausalConv

end
-- ==== Proof.RefIsSpec.lean ====
/-
  The reference, stage by stage, is the specification `Cert.CausalConv.out` with padding value 0.

  The reference pads the input by two zero rows in front along the sequence axis, takes the three windows of the padded
  array that start at rows 0, 1 and 2, multiplies window `k` by column `k` of the depthwise weight (broadcast over batch
  and position), adds them starting from a zero array, adds the depthwise bias, contracts the channel axis with the
  second axis of the pointwise weight and adds the pointwise bias.  Row `l` of window `k` is row `l + k` of the padded
  array, that is row `l + k - 2` of the input, or the padding value when `l + k < 2`: the specification's tap `k`.
  The sum `0 + t₀ + t₁ + t₂ + bias` is the specification's `bias + t₀ + t₁ + t₂` in the additive commutative monoid of
  the extended reals.
-/
import proofs.«129708_j77309411809_1_alg».proof.Proof.Gen.ReferenceIdeal.Read
import proofs.«129708_j77309411809_1_alg».proof.Proof.Spec
import Idealize.ShloMosaic.Lib.KernelVsHost

noncomputable section

namespace Cert.ReferenceIdeal.RefValue

open Cert.ReferenceIdeal Cert.ReferenceIdeal.Gen Cert.ReferenceIdeal.Read Idealize.ShloMosaic Idealize.ShloMosaic.ValueIdx
open Cert.CausalConv

/-- The padding value, the integer zero converted to a float, is the real number zero. -/
theorem pad_value (j : S_.Idx) : val_main_call0_v0 (F := Ideal) j = (0 : EReal) := by
  show (((0#32 : BitVec 32).toInt : ℝ) : EReal) = 0
  simp

/-- The padded input at batch `b`, row `k + l`, channel `d` is the specification's tap `k` at position `l`. -/
theorem padded_tap (x0 : FVec Ideal S4x4096x1024 .f32) (b : Fin 4) (l : Fin 4096) (d : Fin 1024) (k : Fin 3)
    (j : S4x4098x1024.Idx) (h0 : (j 0).val = b.val) (h1 : (j 1).val = k.val + l.val) (h2 : (j 2).val = d.val) :
    val_main_v0 (F := Ideal) x0 j = tap 0 x0 b l d k := by
  unfold val_main_v0
  by_cases hk : 2 ≤ l.val + k.val
  · have hr : l.val + k.val - 2 < 4096 := by have := l.isLt; have := k.isLt; omega
    rw [tap_of_le 0 x0 b l d k ⟨l.val + k.val - 2, hr⟩ (by show l.val + k.val - 2 + 2 = l.val + k.val; omega)]
    refine pad_apply_of_inside ![0, 2, 0] ![0, 0, 0] ![0, 0, 0] x0 _ pads_S4x4096x1024_S4x4098x1024_000_200_000 h_S_ j
      (ix3 b ⟨l.val + k.val - 2, hr⟩ d) (fun a => ?_)
    match a with
    | ⟨0, _⟩ => show (j 0).val = 0 + b.val * (0 + 1); omega
    | ⟨1, _⟩ => show (j 1).val = 2 + (l.val + k.val - 2) * (0 + 1); omega
    | ⟨2, _⟩ => show (j 2).val = 0 + d.val * (0 + 1); omega
  · rw [tap_of_lt 0 x0 b l d k (by omega)]
    refine (pad_apply_of_not_inside ![0, 2, 0] ![0, 0, 0] ![0, 0, 0] x0 _ pads_S4x4096x1024_S4x4098x1024_000_200_000 h_S_ j
      (1 : Fin 3) (fun h => ?_)).trans (pad_value _)
    have h' : 2 ≤ (j 1).val := h.1
    omega

/-- Column `0` of the depthwise weight, broadcast over batch and position. -/
theorem weight0 (x1 : FVec Ideal S1024x3 .f32) (j : S4x4096x1024.Idx) (d : Fin 1024) (hd : (j 2).val = d.val) :
    val_main_v5 (F := Ideal) x1 j = x1 (ix2 d 0) := by
  rw [val_main_v5_apply, val_main_v4_apply, val_main_v3_apply, val_main_v2_apply]
  refine congrArg x1 (funext fun a => Fin.ext ?_)
  match a with
  | ⟨0, _⟩ => show (j 2).val / 1 = d.val; omega
  | ⟨1, _⟩ => rfl

/-- Column `1` of the depthwise weight, broadcast over batch and position. -/
theorem weight1 (x1 : FVec Ideal S1024x3 .f32) (j : S4x4096x1024.Idx) (d : Fin 1024) (hd : (j 2).val = d.val) :
    val_main_v13 (F := Ideal) x1 j = x1 (ix2 d 1) := by
  rw [val_main_v13_apply, val_main_v12_apply, val_main_v11_apply, val_main_v10_apply]
  refine congrArg x1 (funext fun a => Fin.ext ?_)
  match a with
  | ⟨0, _⟩ => show (j 2).val / 1 = d.val; omega
  | ⟨1, _⟩ => rfl

/-- Column `2` of the depthwise weight, broadcast over batch and position. -/
theorem weight2 (x1 : FVec Ideal S1024x3 .f32) (j : S4x4096x1024.Idx) (d : Fin 1024) (hd : (j 2).val = d.val) :
    val_main_v20 (F := Ideal) x1 j = x1 (ix2 d 2) := by
  rw [val_main_v20_apply, val_main_v19_apply, val_main_v18_apply, val_main_v17_apply]
  refine congrArg x1 (funext fun a => Fin.ext ?_)
  match a with
  | ⟨0, _⟩ => show (j 2).val / 1 = d.val; omega
  | ⟨1, _⟩ => rfl

/-- The depthwise bias, broadcast over batch and position. -/
theorem bias_dw (x2 : FVec Ideal S1024 .f32) (j : S4x4096x1024.Idx) (d : Fin 1024) (hd : (j 2).val = d.val) :
    val_main_v24 (F := Ideal) x2 j = x2 (ix1 d) := by
  rw [val_main_v24_apply, val_main_v23_apply]
  refine congrArg x2 (funext fun a => Fin.ext ?_)
  match a with
  | ⟨0, _⟩ => exact hd

/-- The pointwise bias, broadcast over batch and position. -/
theorem bias_pw (x4 : FVec Ideal S1024 .f32) (j : S4x4096x1024.Idx) :
    val_main_v28 (F := Ideal) x4 j = x4 (ix1 (j 2)) := by
  rw [val_main_v28_apply, val_main_v27_apply]
  refine congrArg x4 (funext fun a => Fin.ext ?_)
  match a with
  | ⟨0, _⟩ => rfl

/-- The array the sum of the taps starts from is zero. -/
theorem start_zero (j : S4x4096x1024.Idx) : val_main_v7 (F := Ideal) j = (0 : EReal) := by
  rw [val_main_v7_apply, val_main_cst_apply]
  exact Ideal.ofBits_zero_f32

/-- The reference's depthwise stage at an index `j = (b, l, d)` is the specification's. -/
theorem depthwise_eq (x0 : FVec Ideal S4x4096x1024 .f32) (x1 : FVec Ideal S1024x3 .f32) (x2 : FVec Ideal S1024 .f32)
    (j : S4x4096x1024.Idx) (b : Fin 4) (l : Fin 4096) (d : Fin 1024)
    (h0 : (j 0).val = b.val) (h1 : (j 1).val = l.val) (h2 : (j 2).val = d.val) :
    val_main_v25 (F := Ideal) x0 x1 x2 j = depthwise 0 x0 x1 x2 b l d := by
  rw [val_main_v25_apply, val_main_v22_apply, val_main_v15_apply, val_main_v8_apply, val_main_v6_apply, val_main_v14_apply,
    val_main_v21_apply, val_main_v1_apply, val_main_v9_apply, val_main_v16_apply,
    padded_tap x0 b l d 0 (idx_main_v1 j) h0 (by show (j 1).val = 0 + l.val; omega) h2,
    padded_tap x0 b l d 1 (idx_main_v9 j) h0 (by show 1 + (j 1).val = 1 + l.val; omega) h2,
    padded_tap x0 b l d 2 (idx_main_v16 j) h0 (by show 2 + (j 1).val = 2 + l.val; omega) h2,
    weight0 x1 j d h2, weight1 x1 j d h2, weight2 x1 j d h2, bias_dw x2 j d h2, start_zero j]
  show (0 : EReal) + tap 0 x0 b l d 0 * x1 (ix2 d 0) + tap 0 x0 b l d 1 * x1 (ix2 d 1) + tap 0 x0 b l d 2 * x1 (ix2 d 2)
      + x2 (ix1 d) = _
  unfold depthwise
  rw [zero_add]
  abel

/-- THE REFERENCE'S RESULT is the specification of the argument arrays, with padding value 0. -/
theorem ref_eq (x0 : FVec Ideal S4x4096x1024 .f32) (x1 : FVec Ideal S1024x3 .f32) (x2 : FVec Ideal S1024 .f32)
    (x3 : FVec Ideal S1024x1024 .f32) (x4 : FVec Ideal S1024 .f32) :
    val_main_v29 (F := Ideal) x0 x1 x2 x3 x4 = out 0 x0 x1 x2 x3 x4 := by
  funext i
  rw [val_main_v29_apply, val_main_v26_apply, bias_pw]
  show (∑ k : Fin 1024, val_main_v25 (F := Ideal) x0 x1 x2 (lidx_main_v26 i k) * x3 (ridx_main_v26 i k)) + x4 (ix1 (i 2)) = _
  unfold out outAt
  refine congrArg (· + x4 (ix1 (i 2))) (Finset.sum_congr rfl fun k _ => ?_)
  rw [depthwise_eq x0 x1 x2 (lidx_main_v26 i k) (i 0) (i 1) k rfl rfl rfl]
  refine congrArg (depthwise 0 x0 x1 x2 (i 0) (i 1) k * x3 ·) (funext fun a => Fin.ext ?_)
  match a with
  | ⟨0, _⟩ => rfl
  | ⟨1, _⟩ => rfl

end Cert.ReferenceIdeal.RefValue

end
-- ==== Proof.LibMatmul.lean ====
/-
  A plain matrix product read at an index, over the extended reals.

  The dimension numbers "contract the left operand's second axis with the right operand's first, no batch axes"
  (`DotDims.plain M K N`) make entry `(p, q)` of the product the sum over `k` of `l (p, k) * r (k, q)`: the
  contraction index has one coordinate, which is `k`; the left operand is read at row `p` of the result's index
  and column `k`, the right operand at row `k` and the result's column `q`. Stated once for every size, for the
  kernel's product into a zero accumulator and for the host's product alike, so that a block of rows of a product
  and the whole product are compared as sums over the same `Fin K`.
-/
import Idealize.ShloMosaic.PureOps.Ideal
import Idealize.ShloMosaic.PureOps.Ideal.Laws
import Idealize.ShloMosaic.Lib.ValueIdx

noncomputable section

namespace LibMatmul

open Idealize.ShloMosaic Idealize.ShloMosaic.ValueIdx

variable {M K N : Nat}

/-- The left operand's row is the result's row. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column is the result's column. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape is the sum over `k : Fin K` of the two operands at `(p, k)` and `(k, q)`. -/
theorem plain_sum (l : (⟨2, ![M, K]⟩ : Shape).Idx → EReal) (r : (⟨2, ![K, N]⟩ : Shape).Idx → EReal) (p : Fin M) (q : Fin N) :
    ∑ c : (DotDims.plain M K N).contr.Idx, l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

/-- The kernel's product into the zero accumulator, at entry `(p, q)`. -/
theorem matmul_zero_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum l r p q

/-- The host's product, at entry `(p, q)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum l r p q

end LibMatmul

end
-- ==== Proof.KernelBody.lean ====
/-
  The kernel body's arithmetic at one entry of its output block.

  The body holds a tile of 512 rows of the input (`v0`), the 8 rows before the tile (`v2`), the three rows of the
  transposed depthwise weight (`v11`, `v19`, `v24`), the depthwise bias (`v4`), the transposed pointwise weight (`v30`)
  and the pointwise bias (`v33`).  It builds the tile shifted down by two rows (the last two history rows on top of
  the tile's first 510 rows) and by one row (the last history row on top of the tile's first 511 rows), and forms
      `y = bias + shifted₂ · w₀ + shifted₁ · w₁ + tile · w₂`,
  each weight row broadcast over the 512 rows.  The result is the matrix product `y · v30` into a zero accumulator plus
  the pointwise bias row: at entry `(p, q)`, `(Σ k, y (p, k) · v30 (k, q)) + v33 (0, q)`.  The change of float format before
  the product is the identity over the extended reals.
-/
import proofs.«129708_j77309411809_1_alg».proof.Proof.Gen.KernelIdeal.Skeleton
import proofs.«129708_j77309411809_1_alg».proof.Proof.LibMatmul
import Idealize.ShloMosaic.Lib.Pipeline.Value
import Idealize.ShloMosaic.Lib.ValueLayout
import Idealize.ShloMosaic.Lib.ValueIdx

noncomputable section

namespace Cert.KernelIdeal.Body

open Cert.KernelIdeal Cert.KernelIdeal.Gen Idealize.ShloMosaic Idealize.ShloMosaic.ValueIdx

/-- Row `p` of the tile shifted down by two rows: a history row for `p < 2`, the tile's row `p - 2` otherwise. -/
def shift2 (v0 : Vec Ideal S1x512x1024 .f32) (v2 : Vec Ideal S1x8x1024 .f32) (p : Fin 512) (k : Fin 1024) : EReal :=
  if h : p.val < 2 then v2 (ix3 (0 : Fin 1) (⟨6 + p.val, by omega⟩ : Fin 8) k)
  else v0 (ix3 (0 : Fin 1) (⟨p.val - 2, by have := p.isLt; omega⟩ : Fin 512) k)

/-- Row `p` of the tile shifted down by one row: the last history row for `p = 0`, the tile's row `p - 1` otherwise. -/
def shift1 (v0 : Vec Ideal S1x512x1024 .f32) (v2 : Vec Ideal S1x8x1024 .f32) (p : Fin 512) (k : Fin 1024) : EReal :=
  if h : p.val < 1 then v2 (ix3 (0 : Fin 1) (⟨7, by omega⟩ : Fin 8) k)
  else v0 (ix3 (0 : Fin 1) (⟨p.val - 1, by have := p.isLt; omega⟩ : Fin 512) k)

/-- The depthwise stage at row `p`, channel `k` of the tile. -/
def rowmix (v0 : Vec Ideal S1x512x1024 .f32) (v2 : Vec Ideal S1x8x1024 .f32) (v4 v11 v19 v24 : Vec Ideal S1x1024 .f32)
    (p : Fin 512) (k : Fin 1024) : EReal :=
  v4 (ix2 (0 : Fin 1) k) + shift2 v0 v2 p k * v11 (ix2 (0 : Fin 1) k) + shift1 v0 v2 p k * v19 (ix2 (0 : Fin 1) k)
    + v0 (ix3 (0 : Fin 1) p k) * v24 (ix2 (0 : Fin 1) k)

/-- The two last history rows stacked on the tile's first 510 rows, at an entry. -/
theorem stack2_apply (v1 : FVec Ideal S512x1024 .f32) (v3 : FVec Ideal S8x1024 .f32)
    (hs3 : S8x1024.Slices ![6, 0] S2x1024) (hs1 : S512x1024.Slices ![0, 0] S510x1024)
    (hc : Shape.Concatenates [S2x1024, S510x1024] S512x1024 0) (p : Fin 512) (k : Fin 1024) :
    concatenate S512x1024 0 [⟨S2x1024, extractStridedSlice S2x1024 ![6, 0] v3 hs3⟩,
        ⟨S510x1024, extractStridedSlice S510x1024 ![0, 0] v1 hs1⟩] hc (ix2 p k)
      = if h : p.val < 2 then v3 (ix2 (⟨6 + p.val, by omega⟩ : Fin 8) k)
        else v1 (ix2 (⟨p.val - 2, by have := p.isLt; omega⟩ : Fin 512) k) := by
  by_cases h : p.val < 2
  · rw [dif_pos h]
    refine (concatenate_pair_apply_left (t := S512x1024) (s₁ := S2x1024) (s₂ := S510x1024) (0 : Fin 2) _ _ hc (ix2 p k) rfl
      (ix2 (n0 := 2) (n1 := 1024) ⟨p.val, h⟩ k)
      (fun b => match b with | ⟨0, _⟩ => rfl | ⟨1, _⟩ => rfl)).trans ?_
    exact extractStridedSlice_apply ![6, 0] v3 hs3 (ix2 (n0 := 2) (n1 := 1024) ⟨p.val, h⟩ k) (ix2 (⟨6 + p.val, by omega⟩ : Fin 8) k)
      (fun a => match a with | ⟨0, _⟩ => rfl | ⟨1, _⟩ => by show k.val = 0 + k.val; omega)
  · rw [dif_neg h]
    have hp : p.val - 2 < 510 := by have := p.isLt; omega
    refine (concatenate_pair_apply_right (t := S512x1024) (s₁ := S2x1024) (s₂ := S510x1024) (0 : Fin 2) _ _ hc (ix2 p k) rfl rfl
      (ix2 (n0 := 510) (n1 := 1024) ⟨p.val - 2, hp⟩ k)
      (fun b hb => match b with | ⟨0, _⟩ => absurd rfl hb | ⟨1, _⟩ => rfl) (by show p.val - 2 + 2 = p.val; omega)).trans ?_
    exact extractStridedSlice_apply ![0, 0] v1 hs1 (ix2 (n0 := 510) (n1 := 1024) ⟨p.val - 2, hp⟩ k) (ix2 (⟨p.val - 2, by omega⟩ : Fin 512) k)
      (fun a => match a with | ⟨0, _⟩ => by show p.val - 2 = 0 + (p.val - 2); omega | ⟨1, _⟩ => by show k.val = 0 + k.val; omega)

/-- The last history row stacked on the tile's first 511 rows, at an entry. -/
theorem stack1_apply (v1 : FVec Ideal S512x1024 .f32) (v3 : FVec Ideal S8x1024 .f32)
    (hs3 : S8x1024.Slices ![7, 0] S1x1024) (hs1 : S512x1024.Slices ![0, 0] S511x1024)
    (hc : Shape.Concatenates [S1x1024, S511x1024] S512x1024 0) (p : Fin 512) (k : Fin 1024) :
    concatenate S512x1024 0 [⟨S1x1024, extractStridedSlice S1x1024 ![7, 0] v3 hs3⟩,
        ⟨S511x1024, extractStridedSlice S511x1024 ![0, 0] v1 hs1⟩] hc (ix2 p k)
      = if h : p.val < 1 then v3 (ix2 (⟨7, by omega⟩ : Fin 8) k)
        else v1 (ix2 (⟨p.val - 1, by have := p.isLt; omega⟩ : Fin 512) k) := by
  by_cases h : p.val < 1
  · rw [dif_pos h]
    refine (concatenate_pair_apply_left (t := S512x1024) (s₁ := S1x1024) (s₂ := S511x1024) (0 : Fin 2) _ _ hc (ix2 p k) rfl
      (ix2 (n0 := 1) (n1 := 1024) ⟨p.val, h⟩ k)
      (fun b => match b with | ⟨0, _⟩ => rfl | ⟨1, _⟩ => rfl)).trans ?_
    exact extractStridedSlice_apply ![7, 0] v3 hs3 (ix2 (n0 := 1) (n1 := 1024) ⟨p.val, h⟩ k) (ix2 (⟨7, by omega⟩ : Fin 8) k)
      (fun a => match a with | ⟨0, _⟩ => by show 7 = 7 + p.val; omega | ⟨1, _⟩ => by show k.val = 0 + k.val; omega)
  · rw [dif_neg h]
    have hp : p.val - 1 < 511 := by have := p.isLt; omega
    refine (concatenate_pair_apply_right (t := S512x1024) (s₁ := S1x1024) (s₂ := S511x1024) (0 : Fin 2) _ _ hc (ix2 p k) rfl rfl
      (ix2 (n0 := 511) (n1 := 1024) ⟨p.val - 1, hp⟩ k)
      (fun b hb => match b with | ⟨0, _⟩ => absurd rfl hb | ⟨1, _⟩ => rfl) (by show p.val - 1 + 1 = p.val; omega)).trans ?_
    exact extractStridedSlice_apply ![0, 0] v1 hs1 (ix2 (n0 := 511) (n1 := 1024) ⟨p.val - 1, hp⟩ k) (ix2 (⟨p.val - 1, by omega⟩ : Fin 512) k)
      (fun a => match a with | ⟨0, _⟩ => by show p.val - 1 = 0 + (p.val - 1); omega | ⟨1, _⟩ => by show k.val = 0 + k.val; omega)

/-- A bias or weight row, cast to its own shape twice or once and broadcast over the 512 rows, at an entry. -/
theorem row_bcast_apply (v : Vec Ideal S1x1024 .f32) (hc : S1x1024.ShapeCasts S1x1024) (hb : S1x1024.Broadcasts S512x1024)
    (p : Fin 512) (k : Fin 1024) :
    broadcastTo S512x1024 (shapeCast S1x1024 v hc) hb (ix2 p k) = v (ix2 (0 : Fin 1) k) := by
  rw [broadcastTo_1b_ab_apply, shapeCast_self]

/-- The sum of the bias and the three weighted taps, in the body's order, after the change of float format. -/
theorem mix_apply (a7 a10 a13 a18 a21 a1 a26 : FVec Ideal S512x1024 .f32) (h : FTy.bits .bf16 < FTy.bits .f32)
    (i : S512x1024.Idx) :
    truncf .bf16 (addf (addf (addf a7 (mulf a10 a13)) (mulf a18 a21)) (mulf a1 a26)) h i
      = a7 i + a10 i * a13 i + a18 i * a21 i + a1 i * a26 i := rfl

/-- THE BODY'S RESULT at entry `(p, q)` of the block: the depthwise stage's row `p` times column `q` of the transposed
    pointwise weight, plus the pointwise bias at `q`. -/
theorem pay2_apply (v0 : Vec Ideal S1x512x1024 .f32) (v2 : Vec Ideal S1x8x1024 .f32) (v4 v11 v19 v24 : Vec Ideal S1x1024 .f32)
    (v30 : Vec Ideal S1024x1024 .bf16) (v33 : Vec Ideal S1x1024 .f32) (p : Fin 512) (q : Fin 1024) :
    k0_pay2 (F := Ideal) v0 v2 v4 v11 v19 v24 v30 v33 (ix2 p q)
      = (∑ k : Fin 1024, rowmix v0 v2 v4 v11 v19 v24 p k * v30 (ix2 k q)) + v33 (ix2 (0 : Fin 1) q) := by
  unfold k0_pay2
  rw [addf_apply, row_bcast_apply]
  refine congrArg (· + v33 (ix2 (0 : Fin 1) q)) ?_
  refine (LibMatmul.matmul_zero_plain_apply none _ _ p q).trans (Finset.sum_congr rfl fun k _ => ?_)
  refine congrArg₂ (· * ·) ?_ (congrFun (shapeCast_self v30 _) (ix2 k q))
  refine (mix_apply _ _ _ _ _ _ _ _ _).trans ?_
  unfold rowmix shift2 shift1
  simp only [stack2_apply, stack1_apply, shapeCast_1ab_ab_apply]
  rw [row_bcast_apply _ _ _ p k, row_bcast_apply v11 _ _ p k, row_bcast_apply v19 _ _ p k, row_bcast_apply v24 _ _ p k,
    shapeCast_self]

end Cert.KernelIdeal.Body

end
-- ==== Proof.KernelValue.lean ====
/-
  The kernel's output array after the run is the specification `Cert.CausalConv.out` of the argument arrays, padding 0.

  The grid has 4 × 8 points; point `t` works on batch `b` and sequence tile `i` (the two block indices of the output
  window).  At that point the body sees: rows `512 i … 512 i + 511` of batch `b` of the input; rows `512 i … 512 i + 7` of
  batch `b` of the input padded with eight zero rows in front, that is rows `512 i - 8 … 512 i - 1` of the input, or zeros
  for the first tile; the transposed depthwise weight; the depthwise bias as a row; the transposed pointwise weight;
  the pointwise bias as a row.  Hence row `p` of the tile shifted down by two (by one) rows is the specification's tap 0
  (tap 1) at position `512 i + p`, the tile's own row is tap 2, and what the body stores at `(p, q)` is the specification at
  `(b, 512 i + p, q)`.  The 32 output blocks tile the array, so the array is the specification everywhere.
-/
import proofs.«129708_j77309411809_1_alg».proof.Proof.Gen.KernelIdeal.Value
import proofs.«129708_j77309411809_1_alg».proof.Proof.KernelBody
import proofs.«129708_j77309411809_1_alg».proof.Proof.Spec
import Idealize.ShloMosaic.Lib.KernelVsHost
import Idealize.ShloMosaic.Lib.ValueLayout
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.CausalConv Cert.KernelIdeal.Body

/-! ## One block, over variables: what the body stores is the specification on the tile -/

theorem hz3 : (![0, 0, 0] : Fin 3 → Nat) = fun _ => 0 := funext fun a => by fin_cases a <;> rfl
theorem hz2 : (![0, 0] : Fin 2 → Nat) = fun _ => 0 := funext fun a => by fin_cases a <;> rfl

section Block

variable (B0 : Vec Ideal S1x512x1024 .f32) (B1 : Vec Ideal S1x8x1024 .f32) (B2 : Vec Ideal S3x1024 .f32)
  (B3 : Vec Ideal S1x1024 .f32) (B4 : Vec Ideal S1024x1024 .bf16) (B5 : Vec Ideal S1x1024 .f32)
  (x : FVec Ideal S4x4096x1024 .f32) (wdw : FVec Ideal S1024x3 .f32) (bdw : FVec Ideal S1024 .f32)
  (wpw : FVec Ideal S1024x1024 .f32) (bpw : FVec Ideal S1024 .f32) (b : Fin 4) (i : Fin 8)

/-- Position `512 i + p` of the sequence. -/
abbrev pos (i : Fin 8) (p : Fin 512) : Fin 4096 := ⟨512 * i.val + p.val, by have := i.isLt; have := p.isLt; omega⟩

/-- The tile shifted down by two rows is tap 0. -/
theorem shift2_eq
    (h0 : ∀ (u : Fin 1) (p : Fin 512) (k : Fin 1024), B0 (ix3 u p k) = x (ix3 b (pos i p) k))
    (h1 : ∀ (u : Fin 1) (r : Fin 8) (k : Fin 1024), B1 (ix3 u r k)
      = if h : 8 ≤ 512 * i.val + r.val then x (ix3 b ⟨512 * i.val + r.val - 8, by have := i.isLt; have := r.isLt; omega⟩ k) else 0)
    (p : Fin 512) (k : Fin 1024) : shift2 B0 B1 p k = tap 0 x b (pos i p) k 0 := by
  unfold shift2
  by_cases hp : p.val < 2
  · rw [dif_pos hp, h1]
    split
    · next hi => exact (tap_of_le 0 x b (pos i p) k 0 _ (by show 512 * i.val + (6 + p.val) - 8 + 2 = 512 * i.val + p.val + 0; omega)).symm
    · next hi => exact (tap_of_lt 0 x b (pos i p) k 0 (by show 512 * i.val + p.val + 0 < 2; have : ¬ 8 ≤ 512 * i.val + (6 + p.val) := hi; omega)).symm
  · rw [dif_neg hp, h0]
    exact (tap_of_le 0 x b (pos i p) k 0 _ (by show 512 * i.val + (p.val - 2) + 2 = 512 * i.val + p.val + 0; omega)).symm

/-- The tile shifted down by one row is tap 1. -/
theorem shift1_eq
    (h0 : ∀ (u : Fin 1) (p : Fin 512) (k : Fin 1024), B0 (ix3 u p k) = x (ix3 b (pos i p) k))
    (h1 : ∀ (u : Fin 1) (r : Fin 8) (k : Fin 1024), B1 (ix3 u r k)
      = if h : 8 ≤ 512 * i.val + r.val then x (ix3 b ⟨512 * i.val + r.val - 8, by have := i.isLt; have := r.isLt; omega⟩ k) else 0)
    (p : Fin 512) (k : Fin 1024) : shift1 B0 B1 p k = tap 0 x b (pos i p) k 1 := by
  unfold shift1
  by_cases hp : p.val < 1
  · rw [dif_pos hp, h1]
    split
    · next hi => exact (tap_of_le 0 x b (pos i p) k 1 _ (by show 512 * i.val + 7 - 8 + 2 = 512 * i.val + p.val + 1; have : 8 ≤ 512 * i.val + 7 := hi; omega)).symm
    · next hi => exact (tap_of_lt 0 x b (pos i p) k 1 (by show 512 * i.val + p.val + 1 < 2; have : ¬ 8 ≤ 512 * i.val + 7 := hi; omega)).symm
  · rw [dif_neg hp, h0]
    exact (tap_of_le 0 x b (pos i p) k 1 _ (by show 512 * i.val + (p.val - 1) + 2 = 512 * i.val + p.val + 1; omega)).symm

/-- The tile itself is tap 2. -/
theorem tile_eq
    (h0 : ∀ (u : Fin 1) (p : Fin 512) (k : Fin 1024), B0 (ix3 u p k) = x (ix3 b (pos i p) k))
    (p : Fin 512) (k : Fin 1024) : B0 (ix3 (0 : Fin 1) p k) = tap 0 x b (pos i p) k 2 := by
  rw [h0]
  exact (tap_of_le 0 x b (pos i p) k 2 _ (by show 512 * i.val + p.val + 2 = 512 * i.val + p.val + 2; rfl)).symm

/-- Row `r` of the transposed depthwise weight, loaded as a row vector. -/
theorem ld_row (r : Nat) (hr : r < 3) (inb : ∀ a, (![r, 0] : Fin 2 → Nat) a + S1x1024.size a ≤ S3x1024.size a) (u : Fin 1)
    (d : Fin 1024) :
    View.ld B2 (Rect.unit (s := S3x1024) ![r, 0] S1x1024.size inb) (ix2 u d) = B2 (ix2 (⟨r, hr⟩ : Fin 3) d) := by
  show B2 ((Rect.unit (s := S3x1024) ![r, 0] S1x1024.size inb).emb (ix2 u d)) = B2 (ix2 (⟨r, hr⟩ : Fin 3) d)
  refine congrArg B2 (funext fun a => Fin.ext ?_)
  have hu : u.val = 0 := by omega
  match a with
  | ⟨0, _⟩ => show r + 1 * u.val = r; omega
  | ⟨1, _⟩ => show 0 + 1 * d.val = d.val; omega

/-- WHAT THE BODY STORES at `(u, p, q)` of its block is the specification at `(b, 512 i + p, q)`, when the blocks hold what
    the hypotheses say of the arrays. -/
theorem block_eq
    (h0 : ∀ (u : Fin 1) (p : Fin 512) (k : Fin 1024), B0 (ix3 u p k) = x (ix3 b (pos i p) k))
    (h1 : ∀ (u : Fin 1) (r : Fin 8) (k : Fin 1024), B1 (ix3 u r k)
      = if h : 8 ≤ 512 * i.val + r.val then x (ix3 b ⟨512 * i.val + r.val - 8, by have := i.isLt; have := r.isLt; omega⟩ k) else 0)
    (h2 : ∀ (r : Fin 3) (d : Fin 1024), B2 (ix2 r d) = wdw (ix2 d r))
    (h3 : ∀ (u : Fin 1) (d : Fin 1024), B3 (ix2 u d) = bdw (ix1 d))
    (h4 : ∀ (d e : Fin 1024), B4 (ix2 d e) = wpw (ix2 e d))
    (h5 : ∀ (u : Fin 1) (e : Fin 1024), B5 (ix2 u e) = bpw (ix1 e))
    (y : S1x512x1024.Idx) :
    out0_6 B0 B1 B2 B3 B4 B5 y = outAt 0 x wdw bdw wpw bpw b (pos i (y 1)) (y 2) := by
  obtain ⟨u, p, q, rfl⟩ : ∃ (u : Fin 1) (p : Fin 512) (q : Fin 1024), y = ix3 u p q := ⟨y 0, y 1, y 2, eq_ix3 y⟩
  show out0_6 B0 B1 B2 B3 B4 B5 (ix3 u p q) = outAt 0 x wdw bdw wpw bpw b (pos i p) q
  have e6 : Value.ix6_0 (ix3 u p q) = ix2 p q :=
    funext fun a => Fin.ext (by match a with | ⟨0, _⟩ => rfl | ⟨1, _⟩ => rfl)
  unfold out0_6 outAt
  rw [Value.canon6_eq]
  show k0_pay2 (F := Ideal) (View.ld B0 r0_0) (View.ld B1 r0_1) (View.ld B3 r0_2) (View.ld B2 r0_3) (View.ld B2 r0_4)
    (View.ld B2 r0_5) (View.ld B4 r0_6) (View.ld B5 r0_2) (Value.ix6_0 (ix3 u p q)) = _
  rw [e6, pay2_apply, View.ld_unit_zero (S := S1x512x1024) hz3, View.ld_unit_zero (S := S1x8x1024) hz3,
    View.ld_unit_zero (S := S1x1024) hz2, View.ld_unit_zero (S := S1024x1024) hz2, View.ld_unit_zero (S := S1x1024) hz2]
  refine congrArg₂ (· + ·) (Finset.sum_congr rfl fun k _ => congrArg₂ (· * ·) ?_ (h4 k q)) (h5 0 q)
  unfold rowmix depthwise
  rw [shift2_eq B0 B1 x b i h0 h1 p k, shift1_eq B0 B1 x b i h0 h1 p k, tile_eq B0 x b i h0 p k, h3,
    ld_row B2 0 (by omega) _ 0 k, ld_row B2 1 (by omega) _ 0 k, ld_row B2 2 (by omega) _ 0 k, h2, h2, h2]
  rfl

end Block

/-! ## The arrays the region finds -/

variable (m : (ℓ : Loc nD τ sig) → Buf (Elt Ideal) ℓ) (ρ : Dev nD → PrngReg)

/-- The padding value, the integer zero converted to a float, is the real number zero. -/
theorem pad_zero (j : S_.Idx) : sitofp (F := Ideal) .f32 (constantI S_ 32 0#32) j = (0 : EReal) := by
  show (((0#32 : BitVec 32).toInt : ℝ) : EReal) = 0
  simp

/-- Window 1's array: the input with eight padding rows in front of every batch's sequence. -/
theorem xpad_eq (c : Dev nD) : (V m c main_v0 : S4x4104x1024.Idx → EReal)
    = pad S4x4104x1024 ![0, 8, 0] ![0, 0, 0] ![0, 0, 0] (m ((c : Thread nD τ).loc main_arg0))
        (sitofp (F := Ideal) .f32 (constantI S_ 32 0#32)) pads_S4x4096x1024_S4x4104x1024_000_800_000 h_S_ := by
  dsimp only [V]
  simp only [hostOps0, hostOps0_1, hostOps0_2, List.flatten_cons, List.flatten_nil, List.append_nil, List.cons_append,
    List.nil_append]
  after_results <;> rfl

/-- Window 2's array: the depthwise weight transposed. -/
theorem wdwT_eq (c : Dev nD) : (V m c main_v1 : S3x1024.Idx → EReal)
    = transpose (α := EReal) S3x1024 [1, 0] (m ((c : Thread nD τ).loc main_arg1)) transposes_S1024x3_S3x1024_1_0 := by
  dsimp only [V]
  simp only [hostOps0, hostOps0_1, hostOps0_2, List.flatten_cons, List.flatten_nil, List.append_nil, List.cons_append,
    List.nil_append]
  after_results <;> rfl

/-- Window 3's array: the depthwise bias as one row. -/
theorem bdwRow_eq (c : Dev nD) : (V m c main_v2 : S1x1024.Idx → EReal)
    = shapeCast S1x1024 (m ((c : Thread nD τ).loc main_arg2)) shapeCasts_S1024_S1x1024 := by
  dsimp only [V]
  simp only [hostOps0, hostOps0_1, hostOps0_2, List.flatten_cons, List.flatten_nil, List.append_nil, List.cons_append,
    List.nil_append]
  after_results <;> rfl

/-- Window 4's array: the pointwise weight transposed (the change of float format is the identity). -/
theorem wpwT_eq (c : Dev nD) : (V m c main_v4 : S1024x1024.Idx → EReal)
    = truncf (F := Ideal) (φ := .f32) .bf16
        (transpose S1024x1024 [1, 0] (m ((c : Thread nD τ).loc main_arg3)) transposes_S1024x1024_S1024x1024_1_0) bitsLt_bf16_f32 := by
  dsimp only [V]
  simp only [hostOps0, hostOps0_1, hostOps0_2, List.flatten_cons, List.flatten_nil, List.append_nil, List.cons_append,
    List.nil_append]
  after_results <;> rfl

/-- Window 5's array: the pointwise bias as one row. -/
theorem bpwRow_eq (c : Dev nD) : (V m c main_v5 : S1x1024.Idx → EReal)
    = shapeCast S1x1024 (m ((c : Thread nD τ).loc main_arg4)) shapeCasts_S1024_S1x1024 := by
  dsimp only [V]
  simp only [hostOps0, hostOps0_1, hostOps0_2, List.flatten_cons, List.flatten_nil, List.append_nil, List.cons_append,
    List.nil_append]
  after_results <;> rfl

/-! ## The windows' blocks at a grid point -/

/-- The printed index maps, decided over the 32 grid points: the input tile moves with the output block; the history
    window's block index along the sequence is 64 times the output's (blocks of 8 rows against blocks of 512); every
    other window stays at block 0; the output's block indices are a batch below 4, a tile below 8 and 0. -/
theorem idx_facts : ∀ t : Fin cfg0.N,
    win0_0.index t (0 : Fin 3) = win0_6.index t (0 : Fin 3) ∧ win0_0.index t (1 : Fin 3) = win0_6.index t (1 : Fin 3)
    ∧ win0_0.index t (2 : Fin 3) = 0
    ∧ win0_1.index t (0 : Fin 3) = win0_6.index t (0 : Fin 3) ∧ win0_1.index t (1 : Fin 3) = 64 * win0_6.index t (1 : Fin 3)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) ≤ 3 ∧ win0_6.index t (1 : Fin 3) ≤ 7 ∧ win0_6.index t (2 : Fin 3) = 0 :=
  (by decide +kernel : ∀ t : Fin grid0.N, _)

/-- Every (batch, tile) pair is some grid point's output block. -/
theorem idx_onto : ∀ (q0 : Fin 4) (q1 : Fin 8), ∃ t : Fin cfg0.N, win0_6.index t = ![q0.val, q1.val, 0] :=
  (by decide +kernel : ∀ (q0 : Fin 4) (q1 : Fin 8), ∃ t : Fin grid0.N, win0_6.index t = ![q0.val, q1.val, 0])

/-- The batch grid point `t` works on. -/
def batchOf (t : Fin cfg0.N) : Fin 4 := ⟨win0_6.index t (0 : Fin 3), by have := (idx_facts t).2.2.2.2.2.2.2.2.2.2.2.2.2.2.1; omega⟩
/-- The sequence tile grid point `t` works on. -/
def tileOf (t : Fin cfg0.N) : Fin 8 := ⟨win0_6.index t (1 : Fin 3), by have := (idx_facts t).2.2.2.2.2.2.2.2.2.2.2.2.2.2.2.1; omega⟩

/-- Window 0's block: the input's tile. -/
theorem blk0 (c : Dev nD) (t : Fin cfg0.N) (u : Fin 1) (p : Fin 512) (k : Fin 1024) :
    (iblk m c 0 t : Vec Ideal S1x512x1024 .f32) (ix3 u p k)
      = (m ((c : Thread nD τ).loc main_arg0) : S4x4096x1024.Idx → EReal) (ix3 (batchOf t) (pos (tileOf t) p) k) := by
  show V m c main_arg0 (((cfg0.win 0).blk t).view.emb (ix3 u p k)) = _
  rw [V_main_arg0]
  obtain ⟨e00, e01, e02, -⟩ := idx_facts t
  have hu : u.val = 0 := by omega
  refine congrArg (m ((c : Thread nD τ).loc main_arg0)) (funext fun a => Fin.ext ?_)
  match a with
  | ⟨0, _⟩ => show win0_0.index t (0 : Fin 3) * 1 + 1 * u.val = win0_6.index t (0 : Fin 3); omega
  | ⟨1, _⟩ => show win0_0.index t (1 : Fin 3) * 512 + 1 * p.val = 512 * win0_6.index t (1 : Fin 3) + p.val; omega
  | ⟨2, _⟩ => show win0_0.index t (2 : Fin 3) * 1024 + 1 * k.val = k.val; omega

/-- Window 1's block: the eight rows before the tile, zeros before the start of the sequence. -/
theorem blk1 (c : Dev nD) (t : Fin cfg0.N) (u : Fin 1) (r : Fin 8) (k : Fin 1024) :
    (iblk m c 1 t : Vec Ideal S1x8x1024 .f32) (ix3 u r k)
      = (if h : 8 ≤ 512 * (tileOf t).val + r.val then
          (m ((c : Thread nD τ).loc main_arg0) : S4x4096x1024.Idx → EReal)
            (ix3 (batchOf t) ⟨512 * (tileOf t).val + r.val - 8, by have := (tileOf t).isLt; have := r.isLt; omega⟩ k)
        else 0 : EReal) := by
  show (V m c main_v0 : S4x4104x1024.Idx → EReal) (((cfg0.win 1).blk t).view.emb (ix3 u r k)) = _
  rw [xpad_eq]
  obtain ⟨-, -, -, e10, e11, e12, -⟩ := idx_facts t
  have hu : u.val = 0 := by omega
  split
  · next h =>
    refine pad_apply_of_inside (s := S4x4096x1024) (t := S4x4104x1024) ![0, 8, 0] ![0, 0, 0] ![0, 0, 0] _ _
      pads_S4x4096x1024_S4x4104x1024_000_800_000 h_S_ _
      (ix3 (batchOf t) ⟨512 * (tileOf t).val + r.val - 8, by have := (tileOf t).isLt; have := r.isLt; omega⟩ k) (fun a => ?_)
    have h' : 8 ≤ 512 * win0_6.index t (1 : Fin 3) + r.val := h
    match a with
    | ⟨0, _⟩ => show win0_1.index t (0 : Fin 3) * 1 + 1 * u.val = 0 + win0_6.index t (0 : Fin 3) * (0 + 1); omega
    | ⟨1, _⟩ => show win0_1.index t (1 : Fin 3) * 8 + 1 * r.val = 8 + (512 * win0_6.index t (1 : Fin 3) + r.val - 8) * (0 + 1); omega
    | ⟨2, _⟩ => show win0_1.index t (2 : Fin 3) * 1024 + 1 * k.val = 0 + k.val * (0 + 1); omega
  · next h =>
    refine (pad_apply_of_not_inside (s := S4x4096x1024) (t := S4x4104x1024) ![0, 8, 0] ![0, 0, 0] ![0, 0, 0] _ _
      pads_S4x4096x1024_S4x4104x1024_000_800_000 h_S_ _ (1 : Fin 3) (fun hh => h ?_)).trans (pad_zero _)
    have h8 : 8 ≤ win0_1.index t (1 : Fin 3) * 8 + 1 * r.val := hh.1
    show 8 ≤ 512 * win0_6.index t (1 : Fin 3) + r.val
    omega

/-- Window 2's block: the transposed depthwise weight, whole. -/
theorem blk2 (c : Dev nD) (t : Fin cfg0.N) (r : Fin 3) (d : Fin 1024) :
    (iblk m c 2 t : Vec Ideal S3x1024 .f32) (ix2 r d)
      = (m ((c : Thread nD τ).loc main_arg1) : S1024x3.Idx → EReal) (ix2 d r) := by
  show (V m c main_v1 : S3x1024.Idx → EReal) (((cfg0.win 2).blk t).view.emb (ix2 r d)) = _
  obtain ⟨-, -, -, -, -, -, e20, e21, -⟩ := idx_facts t
  have e : ((cfg0.win 2).blk t).view.emb (ix2 r d) = ix2 r d := funext fun a => Fin.ext (by
    match a with
    | ⟨0, _⟩ => show win0_2.index t (0 : Fin 2) * 3 + 1 * r.val = r.val; omega
    | ⟨1, _⟩ => show win0_2.index t (1 : Fin 2) * 1024 + 1 * d.val = d.val; omega)
  rw [e, wdwT_eq]
  exact transpose_ix2_apply _ _ r d

/-- Window 3's block: the depthwise bias as a row. -/
theorem blk3 (c : Dev nD) (t : Fin cfg0.N) (u : Fin 1) (d : Fin 1024) :
    (iblk m c 3 t : Vec Ideal S1x1024 .f32) (ix2 u d)
      = (m ((c : Thread nD τ).loc main_arg2) : S1024.Idx → EReal) (ix1 d) := by
  show (V m c main_v2 : S1x1024.Idx → EReal) (((cfg0.win 3).blk t).view.emb (ix2 u d)) = _
  obtain ⟨-, -, -, -, -, -, -, -, e30, e31, -⟩ := idx_facts t
  have e : ((cfg0.win 3).blk t).view.emb (ix2 u d) = ix2 u d := funext fun a => Fin.ext (by
    match a with
    | ⟨0, _⟩ => show win0_3.index t (0 : Fin 2) * 1 + 1 * u.val = u.val; omega
    | ⟨1, _⟩ => show win0_3.index t (1 : Fin 2) * 1024 + 1 * d.val = d.val; omega)
  rw [e, bdwRow_eq]
  exact shapeCast_a_1a_apply _ _ u d

/-- Window 4's block: the transposed pointwise weight, whole. -/
theorem blk4 (c : Dev nD) (t : Fin cfg0.N) (d e' : Fin 1024) :
    (iblk m c 4 t : Vec Ideal S1024x1024 .bf16) (ix2 d e')
      = (m ((c : Thread nD τ).loc main_arg3) : S1024x1024.Idx → EReal) (ix2 e' d) := by
  show (V m c main_v4 : S1024x1024.Idx → EReal) (((cfg0.win 4).blk t).view.emb (ix2 d e')) = _
  obtain ⟨-, -, -, -, -, -, -, -, -, -, e40, e41, -⟩ := idx_facts t
  have e : ((cfg0.win 4).blk t).view.emb (ix2 d e') = ix2 d e' := funext fun a => Fin.ext (by
    match a with
    | ⟨0, _⟩ => show win0_4.index t (0 : Fin 2) * 1024 + 1 * d.val = d.val; omega
    | ⟨1, _⟩ => show win0_4.index t (1 : Fin 2) * 1024 + 1 * e'.val = e'.val; omega)
  rw [e, wpwT_eq]
  exact transpose_ix2_apply _ _ d e'

/-- Window 5's block: the pointwise bias as a row. -/
theorem blk5 (c : Dev nD) (t : Fin cfg0.N) (u : Fin 1) (d : Fin 1024) :
    (iblk m c 5 t : Vec Ideal S1x1024 .f32) (ix2 u d)
      = (m ((c : Thread nD τ).loc main_arg4) : S1024.Idx → EReal) (ix1 d) := by
  show (V m c main_v5 : S1x1024.Idx → EReal) (((cfg0.win 5).blk t).view.emb (ix2 u d)) = _
  obtain ⟨-, -, -, -, -, -, -, -, -, -, -, -, e50, e51, -⟩ := idx_facts t
  have e : ((cfg0.win 5).blk t).view.emb (ix2 u d) = ix2 u d := funext fun a => Fin.ext (by
    match a with
    | ⟨0, _⟩ => show win0_5.index t (0 : Fin 2) * 1 + 1 * u.val = u.val; omega
    | ⟨1, _⟩ => show win0_5.index t (1 : Fin 2) * 1024 + 1 * d.val = d.val; omega)
  rw [e, bpwRow_eq]
  exact shapeCast_a_1a_apply _ _ u d

/-! ## From the blocks to the array -/

/-- The specification of the argument arrays as launched, on core `c`. -/
abbrev spec (c : Dev nD) : S4x4096x1024.Idx → EReal :=
  out 0 (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is block `t` of the specification. -/
theorem flushed_eq (c : Dev nD) (t : Fin cfg0.N) :
    (dats m 0 c).flushed 6 t = ((cfg0.win 6).blk t).view.read (Elt Ideal) (spec m c) := by
  rw [Value.flushed6]
  funext y
  show out0_6 (iblk m c 0 t) (iblk m c 1 t) (iblk m c 2 t) (iblk m c 3 t) (iblk m c 4 t) (iblk m c 5 t) y
    = spec m c (((cfg0.win 6).blk t).view.emb y)
  refine (block_eq (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (m ((c : Thread nD τ).loc main_arg3)) (m ((c : Thread nD τ).loc main_arg4)) (batchOf t) (tileOf t)
    (blk0 m c t) (blk1 m c t) (blk2 m c t) (blk3 m c t) (blk4 m c t) (blk5 m c t) y).trans ?_
  obtain ⟨-, -, -, -, -, -, -, -, -, -, -, -, -, -, -, -, e62⟩ := idx_facts t
  have hy0 : (y 0).val < 1 := (y 0).isLt
  have hy1 : (y 1).val < 512 := (y 1).isLt
  have hy2 : (y 2).val < 1024 := (y 2).isLt
  show outAt 0 _ _ _ _ _ (batchOf t) (pos (tileOf t) (y 1)) (y 2) = outAt 0 _ _ _ _ _
    ((((cfg0.win 6).blk t).view.emb y) 0) ((((cfg0.win 6).blk t).view.emb y) 1) ((((cfg0.win 6).blk t).view.emb y) 2)
  congr 1
  · exact Fin.ext (by show win0_6.index t (0 : Fin 3) = win0_6.index t (0 : Fin 3) * 1 + 1 * (y 0).val; omega)
  · exact Fin.ext (by show 512 * win0_6.index t (1 : Fin 3) + (y 1).val = win0_6.index t (1 : Fin 3) * 512 + 1 * (y 1).val; omega)
  · exact Fin.ext (by show (y 2).val = win0_6.index t (2 : Fin 3) * 1024 + 1 * (y 2).val; omega)

/-- An index of the array is in point `t`'s block iff each coordinate is in the block's range on its axis. -/
theorem mem_blk (t : Fin cfg0.N) (i : S4x4096x1024.Idx) :
    i ∈ ((cfg0.win 6).blk t).view.set ↔ ∀ a : Fin 3, win0_6.index t a * S1x512x1024.size a ≤ (i a).val
      ∧ (i a).val < win0_6.index t a * S1x512x1024.size a + S1x512x1024.size a := by
  show i ∈ ((View.whole main_v6).slice (win0_6.rect t)).set ↔ _
  rw [View.set_slice_whole, Rect.mem_set_unit]
  exact Iff.rfl

/-- The 32 blocks cover the array: index `(b, l, e)` is in the block of batch `b`, tile `l / 512`. -/
theorem cover (i : S4x4096x1024.Idx) :
    ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 1024 := (i 2).isLt
  obtain ⟨t, ht⟩ := idx_onto ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega

/-- THE OUTPUT ARRAY after the run is the specification of the argument arrays. -/
theorem final (c : Dev nD) : (dats m 0 c).arrAt 6 cfg0.N = spec m c :=
  (dats m 0 c).arrAt_eq_of_cover 6 (spec m c) (fun t _ => flushed_eq m c t) cover

/-- The kernel's run: every weakly fair execution terminates with the result array at the specification of the
    argument arrays, and the arguments unchanged. -/
theorem run : θ_run defs (onTc (τ := τ) (main (F := Ideal))) ⟨m, fun _ => 0, ρ⟩ fun r => ∀ c : Dev nD,
      r.2.mem ((c : Thread nD τ).loc main_v6) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KValue

end
-- ==== Proof.lean ====
/-
  A causal depthwise convolution of three taps along the sequence axis followed by a pointwise convolution that mixes
  the channels, computed tile by tile by a kernel and whole by a reference: the two agree over the extended reals.

  Both programs compute, at batch `b`, position `l` and output channel `e`,
      `(Σ d, y b l d · w_pw (e, d)) + b_pw e`   with   `y b l d = b_dw d + Σ k<3, x (b, l + k - 2, d) · w_dw (d, k)`,
  where `x` at a position before the start of the sequence is zero (`Cert.CausalConv.out`, Proof/Spec.lean).  The
  reference pads two zero rows in front and adds three shifted windows starting from zero (Proof/RefIsSpec.lean).  The
  kernel pads eight zero rows in front, gives every tile of 512 positions the eight rows before it as a second block,
  rebuilds the two shifted tiles from those, and multiplies by the transposed pointwise weight block by block
  (Proof/KernelBody.lean, Proof/KernelValue.lean).  The two orders in which the bias and the taps are added agree in the
  additive commutative monoid of the extended reals, and a change of float format is the identity there, so no
  finiteness of the inputs is used.  The kernel's frames are the generated ones; the reference's frame is its generated
  run with the result dropped; the idealization rewrote nothing, so there is nothing to preserve.
-/
import proofs.«129708_j77309411809_1_alg».proof.Defs
import proofs.«129708_j77309411809_1_alg».proof.Proof.Gen.Kernel
import proofs.«129708_j77309411809_1_alg».proof.Proof.Gen.Kernel.Skeleton
import proofs.«129708_j77309411809_1_alg».proof.Proof.Gen.Kernel.Launch
import proofs.«129708_j77309411809_1_alg».proof.Proof.Gen.Kernel.Points
import proofs.«129708_j77309411809_1_alg».proof.Proof.Gen.Kernel.Frame
import proofs.«129708_j77309411809_1_alg».proof.Proof.Gen.KernelIdeal
import proofs.«129708_j77309411809_1_alg».proof.Proof.Gen.KernelIdeal.Skeleton
import proofs.«129708_j77309411809_1_alg».proof.Proof.Gen.KernelIdeal.Launch
import proofs.«129708_j77309411809_1_alg».proof.Proof.Gen.KernelIdeal.Points
import proofs.«129708_j77309411809_1_alg».proof.Proof.Gen.KernelIdeal.Frame
import proofs.«129708_j77309411809_1_alg».proof.Proof.Gen.ReferenceIdeal
import proofs.«129708_j77309411809_1_alg».proof.Proof.Gen.Pre_finite_inputs
import proofs.«129708_j77309411809_1_alg».proof.Proof.Gen.KernelIdeal.Value
import proofs.«129708_j77309411809_1_alg».proof.Proof.Gen.ReferenceIdeal.Run
import proofs.«129708_j77309411809_1_alg».proof.Proof.Gen.ReferenceIdeal.Read
import proofs.«129708_j77309411809_1_alg».proof.Proof.RefIsSpec
import proofs.«129708_j77309411809_1_alg».proof.Proof.KernelValue
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array and the reference's are both the causal
    depthwise-then-pointwise convolution of those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v29_eq _ _ _ _ _).trans ?_
  rw [Cert.ReferenceIdeal.RefValue.ref_eq, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
